-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S96x512x512 : Shape := ⟨3, ![96, 512, 512]⟩
abbrev S2x8x128 : Shape := ⟨3, ![2, 8, 128]⟩
abbrev S2x512x512 : Shape := ⟨3, ![2, 512, 512]⟩
abbrev S1x8x128 : Shape := ⟨3, ![1, 8, 128]⟩
abbrev S8x128 : Shape := ⟨2, ![8, 128]⟩
abbrev S2x512 : Shape := ⟨2, ![2, 512]⟩
abbrev S2 : Shape := ⟨1, ![2]⟩
abbrev S1x2 : Shape := ⟨2, ![1, 2]⟩
abbrev S1 : Shape := ⟨1, ![1]⟩
abbrev S1x1 : Shape := ⟨2, ![1, 1]⟩
abbrev S2x1x1 : Shape := ⟨3, ![2, 1, 1]⟩
abbrev S_ : Shape := ⟨0, ![]⟩

abbrev nBuf : Space → Nat
  | .hbm => 19
  | .vmem => 15
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3x512x512, .f32⟩
  | .hbm, ⟨3, _⟩ => ⟨S32x3x512x512, .f32⟩
  | .hbm, ⟨4, _⟩ => ⟨S32x3x512x512, .f32⟩
  | .hbm, ⟨5, _⟩ => ⟨S32x3x512x512, .f32⟩
  | .hbm, ⟨6, _⟩ => ⟨S96x512x512, .f32⟩
  | .hbm, ⟨7, _⟩ => ⟨S96x512x512, .f32⟩
  | .hbm, ⟨8, _⟩ => ⟨S96x512x512, .f32⟩
  | .hbm, ⟨9, _⟩ => ⟨S96x512x512, .f32⟩
  | .hbm, ⟨10, _⟩ => ⟨S96x512x512, .f32⟩
  | .hbm, ⟨11, _⟩ => ⟨S96x512x512, .f32⟩
  | .hbm, ⟨12, _⟩ => ⟨S2x8x128, .f32⟩
  | .hbm, ⟨13, _⟩ => ⟨S2x1x1, .f32⟩
  | .hbm, ⟨14, _⟩ => ⟨S2, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | .local _ .vmem, ⟨8, _⟩ => ⟨S2x512x512, .f32⟩
  | .local _ .vmem, ⟨9, _⟩ => ⟨S2x512x512, .f32⟩
  | .local _ .vmem, ⟨10, _⟩ => ⟨S2x512x512, .f32⟩
  | .local _ .vmem, ⟨11, _⟩ => ⟨S2x512x512, .f32⟩
  | .local _ .vmem, ⟨12, _⟩ => ⟨S1x8x128, .f32⟩
  | .local _ .vmem, ⟨13, _⟩ => ⟨S1x8x128, .f32⟩
  | .local _ .vmem, ⟨14, _⟩ => ⟨S8x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v40 : BitVec 1 := Scalar.cmpi .eq arg1 c23_i32
  let v41 : BitVec 32 := Scalar.extui v40
  let c0_i32_24 : BitVec 32 := 0#32
  let v42 : BitVec 1 := Scalar.cmpi .ne v41 c0_i32_24
  v42

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S32x3x512x512_S96x512x512 : S32x3x512x512.ShapeCasts S96x512x512
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  reduces_S2x512x512_S2x512 : S2x512x512.Reduces [2] S2x512
  reduces_S2x512_S2 : S2x512.Reduces [1] S2
  shapeCasts_S2_S1x2 : S2.ShapeCasts S1x2
  reduces_S1x2_S1 : S1x2.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S96x512x512.size a
  hwx0_0 : ∀ i : grid0.Coords, EltTy.bits .f32 = 32 ∨ (Rect.block (s := S96x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S96x512x512.size a
  hwx0_1 : ∀ i : grid0.Coords, EltTy.bits .f32 = 32 ∨ (Rect.block (s := S96x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S96x512x512.size a
  hwx0_2 : ∀ i : grid0.Coords, EltTy.bits .f32 = 32 ∨ (Rect.block (s := S96x512x512) S2x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S96x512x512.size a
  hwx0_3 : ∀ i : grid0.Coords, EltTy.bits .f32 = 32 ∨ (Rect.block (s := S96x512x512) S2x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x512.size a ≤ S96x512x512.size a
  hwx0_4 : ∀ i : grid0.Coords, EltTy.bits .f32 = 32 ∨ (Rect.block (s := S96x512x512) S2x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x512.size a ≤ S96x512x512.size a
  hwx0_5 : ∀ i : grid0.Coords, EltTy.bits .f32 = 32 ∨ (Rect.block (s := S96x512x512) S2x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

abbrev win0_0 : Pipeline.Window sig grid0 :=
  Pipeline.Window.ofSpec (Memref.whole main_v4) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3x512x512, .f32⟩
  | .hbm, ⟨3, _⟩ => ⟨S32x3x512x512, .f32⟩
  | .hbm, ⟨4, _⟩ => ⟨S32x3x512x512, .f32⟩
  | .hbm, ⟨5, _⟩ => ⟨S32x3x512x512, .f32⟩
  | .hbm, ⟨6, _⟩ => ⟨S32x3x512x512, .f32⟩
  | .hbm, ⟨7, _⟩ => ⟨S32x3x512x512, .f32⟩
  | .hbm, ⟨8, _⟩ => ⟨S32x3x512x512, .f32⟩
  | .hbm, ⟨9, _⟩ => ⟨S32x3x512x512, .f32⟩
  | .hbm, ⟨10, _⟩ => ⟨S32x3x512x512, .f32⟩
  | .hbm, ⟨11, _⟩ => ⟨S32x3x512x512, .f32⟩
  | .hbm, ⟨12, _⟩ => ⟨S32x3x512x512, .f32⟩
  | .hbm, ⟨13, _⟩ => ⟨S32x3x512x512, .f32⟩
  | .hbm, ⟨14, _⟩ => ⟨S32x3x512x512, .f32⟩
  | .hbm, ⟨15, _⟩ => ⟨S32x3x512x512, .f32⟩
  | .hbm, ⟨16, _⟩ => ⟨S32x3x512x512, .f32⟩
  | .hbm, ⟨17, _⟩ => ⟨S32x3x512x512, .f32⟩
  | .hbm, ⟨18, _⟩ => ⟨S32x3x512x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  reducesTo_S32x3x512x512_S_d0_1_2_3 : S32x3x512x512.ReducesTo [0, 1, 2, 3] S_
  h_S_ : 0 < S_.numel

variable [Facts₀]

class Facts : Prop extends Facts₀ where

variable [Facts]
-- ==== Proof.KernelPieces.lean ====
/-
  What one run of the kernel body leaves behind, as values.

  The body keeps a running total in an [8,128] accumulator that lives across the grid points. At the first point of a
  group it clears the accumulator and then adds the point's scalar (the sum of the point's summand block) to every
  entry; at every later point it adds that scalar to what the point before left; at the last point of a group it also
  copies the accumulator, with a unit axis put in front, into the output block. So whatever the float instance:
    first point of a group   accumulator = (zero block) + scalar
    later points             accumulator = (what the point before left) + scalar
    last point of a group    output block = that accumulator, as a [1,8,128] block.
  Each statement below is read off the stores the body makes: the last store through the whole accumulator is what it
  holds afterwards, and a load after a store reads what was stored.
-/
import proofs.«151076_j67929202753539_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a group: the accumulator is cleared, then the point's scalar is added to every entry. -/
theorem scratch_first (c : Dev nD) (i : grid0.Coords) (arg2 : Memref sig .tc .vmem S2x512x512 .f32) (harg2 : arg2.IsWhole) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S2x512x512 .f32) (harg7 : arg7.IsWhole) (arg8 : Memref sig .tc .vmem S1x8x128 .f32) (harg8 : arg8.IsWhole) (arg9 : Memref sig .tc .vmem S8x128 .f32) (harg9 : arg9.IsWhole) (hc0 : cond0_0 i) (hc1 : ¬cond0_1 i) (x0 : Vec F S2x512x512 .f32) (x1 : Vec F S2x512x512 .f32) (x2 : Vec F S2x512x512 .f32) (x3 : Vec F S2x512x512 .f32) (x4 : Vec F S2x512x512 .f32) (x5 : Vec F S2x512x512 .f32) :
    sout0_A_0 c i arg2 harg2 arg3 harg3 arg4 harg4 arg5 harg5 arg6 harg6 arg7 harg7 arg8 harg8 arg9 harg9 hc0 hc1 x0 x1 x2 x3 x4 x5 = k0_pay1 (k0_pay4 x0 x1 x2 x3 x4 x5) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S8x128) hz2]
  simp only [View.readAt_eq_ld, harg2.read_unread, harg3.read_unread, harg4.read_unread, harg5.read_unread, harg6.read_unread, harg7.read_unread, View.ld_unit_zero (S := S2x512x512) hz3, View.readCov_unit_zero (S := S8x128) _ hz2]

/-- A middle point: the point's scalar is added to what the point before left in the accumulator. -/
theorem scratch_middle (c : Dev nD) (i : grid0.Coords) (arg2 : Memref sig .tc .vmem S2x512x512 .f32) (harg2 : arg2.IsWhole) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S2x512x512 .f32) (harg7 : arg7.IsWhole) (arg8 : Memref sig .tc .vmem S1x8x128 .f32) (harg8 : arg8.IsWhole) (arg9 : Memref sig .tc .vmem S8x128 .f32) (harg9 : arg9.IsWhole) (hc0 : ¬cond0_0 i) (hc1 : ¬cond0_1 i) (x0 : Vec F S2x512x512 .f32) (x1 : Vec F S2x512x512 .f32) (x2 : Vec F S2x512x512 .f32) (x3 : Vec F S2x512x512 .f32) (x4 : Vec F S2x512x512 .f32) (x5 : Vec F S2x512x512 .f32)
    (xs0 : Vec F S8x128 .f32) :
    sout0_B_0 c i arg2 harg2 arg3 harg3 arg4 harg4 arg5 harg5 arg6 harg6 arg7 harg7 arg8 harg8 arg9 harg9 hc0 hc1 x0 x1 x2 x3 x4 x5 xs0 = k0_pay1 (k0_pay4 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S8x128) hz2]
  simp only [View.readAt_eq_ld, harg2.read_unread, harg3.read_unread, harg4.read_unread, harg5.read_unread, harg6.read_unread, harg7.read_unread, harg9.read_unread, View.ld_unit_zero (S := S2x512x512) hz3, View.ld_unit_zero (S := S8x128) hz2]

/-- The last point of a group: the accumulator as at a middle point. -/
theorem scratch_last (c : Dev nD) (i : grid0.Coords) (arg2 : Memref sig .tc .vmem S2x512x512 .f32) (harg2 : arg2.IsWhole) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S2x512x512 .f32) (harg7 : arg7.IsWhole) (arg8 : Memref sig .tc .vmem S1x8x128 .f32) (harg8 : arg8.IsWhole) (arg9 : Memref sig .tc .vmem S8x128 .f32) (harg9 : arg9.IsWhole) (hc0 : ¬cond0_0 i) (hc1 : cond0_1 i) (x0 : Vec F S2x512x512 .f32) (x1 : Vec F S2x512x512 .f32) (x2 : Vec F S2x512x512 .f32) (x3 : Vec F S2x512x512 .f32) (x4 : Vec F S2x512x512 .f32) (x5 : Vec F S2x512x512 .f32)
    (xs0 : Vec F S8x128 .f32) :
    sout0_C_0 c i arg2 harg2 arg3 harg3 arg4 harg4 arg5 harg5 arg6 harg6 arg7 harg7 arg8 harg8 arg9 harg9 hc0 hc1 x0 x1 x2 x3 x4 x5 xs0 = k0_pay1 (k0_pay4 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S8x128) hz2]
  simp only [View.readAt_eq_ld, harg2.read_unread, harg3.read_unread, harg4.read_unread, harg5.read_unread, harg6.read_unread, harg7.read_unread, harg9.read_unread, View.ld_unit_zero (S := S2x512x512) hz3, View.ld_unit_zero (S := S8x128) hz2]

/-- The last point of a group: the output block is that accumulator with a unit axis in front. -/
theorem out_last (c : Dev nD) (i : grid0.Coords) (arg2 : Memref sig .tc .vmem S2x512x512 .f32) (harg2 : arg2.IsWhole) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S2x512x512 .f32) (harg7 : arg7.IsWhole) (arg8 : Memref sig .tc .vmem S1x8x128 .f32) (harg8 : arg8.IsWhole) (arg9 : Memref sig .tc .vmem S8x128 .f32) (harg9 : arg9.IsWhole) (hc0 : ¬cond0_0 i) (hc1 : cond0_1 i) (x0 : Vec F S2x512x512 .f32) (x1 : Vec F S2x512x512 .f32) (x2 : Vec F S2x512x512 .f32) (x3 : Vec F S2x512x512 .f32) (x4 : Vec F S2x512x512 .f32) (x5 : Vec F S2x512x512 .f32)
    (xs0 : Vec F S8x128 .f32) :
    out0_C_6 c i arg2 harg2 arg3 harg3 arg4 harg4 arg5 harg5 arg6 harg6 arg7 harg7 arg8 harg8 arg9 harg9 hc0 hc1 x0 x1 x2 x3 x4 x5 xs0 = k0_pay2 (k0_pay1 (k0_pay4 x0 x1 x2 x3 x4 x5) xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1x8x128) hz3]
  simp only [View.readAt_eq_ld, harg2.read_unread, harg3.read_unread, harg4.read_unread, harg5.read_unread, harg6.read_unread, harg7.read_unread, harg9.read_unread, View.ld_unit_zero (S := S2x512x512) hz3, View.ld_unit_zero (S := S8x128) hz2, View.readCov_unit_zero (S := S8x128) _ hz2]

end Cert.KernelIdeal.Pieces

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.LibSumIdx.lean ====
/-
  A general lemma file. A finite sum over the index set of a rank-1 or a rank-3 array is the sum over its coordinates:
  the index set is the product of the coordinates' ranges. It holds in any commutative additive monoid, so in particular
  over the extended reals, where regrouping a sum needs no finiteness.
-/
import Idealize.ShloMosaic.Lib.ValueIdx

noncomputable section

open scoped BigOperators

namespace Cert.SumIdx

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SumIdx

end
-- ==== Proof.FlipDiffSum.lean ====
/-
  The mean flip-difference loss as mathematics, apart from either program.

  For two arrays x, y of one shape, their mirror images xh, yh along one axis and xw, yw along another, the loss's
  summand at an index is
      (|x - xh| - |y - yh|)^2 + (|xw - x| - |yw - y|)^2,
  entry by entry, and the loss is the sum of the summands over every index, divided by a constant. Both programs form
  exactly this summand; they differ only in the order in which they walk the index set while adding. Over the extended
  reals addition is commutative and associative without any side condition, so every walk gives the same total: no
  step below asks the inputs to be finite.

  Here: the summand as an operation on arrays of any one shape, entry by entry; the loss; three nested one-axis lane sums
  of a [2,512,512] block as the triple sum over its coordinates; and the sum over the 96 rows of a [96,512,512] array taken
  two rows at a time, twenty-four pairs to a group, two groups.
-/
import Idealize.ShloMosaic.PureOps.Ideal.Laws
import Idealize.ShloMosaic.Lib.ValueIdx
import Idealize.ShloMosaic.Lib.Pipeline.Value
import proofs.«151076_j67929202753539_1_alg».proof.Proof.LibSumTiles
import proofs.«151076_j67929202753539_1_alg».proof.Proof.LibSumIdx

noncomputable section

open scoped BigOperators

namespace Cert.FlipDiff

open Idealize.ShloMosaic Idealize.ShloMosaic.ValueIdx

/-! ## The summand -/

/-- The summand array of six arrays of one shape: (|x - xh| - |y - yh|)^2 + (|xw - x| - |yw - y|)^2 at every index. -/
def summand {s : Shape} (x y xh yh xw yw : FVec Ideal s .f32) : FVec Ideal s .f32 :=
  addf (mulf (subf (absf (subf x xh)) (absf (subf y yh))) (subf (absf (subf x xh)) (absf (subf y yh))))
    (mulf (subf (absf (subf xw x)) (absf (subf yw y))) (subf (absf (subf xw x)) (absf (subf yw y))))

/-- THE LOSS of two [32,3,512,512] arrays, as an array with one entry: zero plus the total of the summand of the two arrays,
    their mirror images along the height axis (axis 2) and along the width axis (axis 3), divided by the value of the
    constant both programs divide by (the word 0x4BC00000, the number of entries; it is the same word on both sides and
    is never evaluated). -/
def meanLoss (x y : FVec Ideal ⟨4, ![32, 3, 512, 512]⟩ .f32) : FVec Ideal ⟨0, ![]⟩ .f32 := fun _ =>
  Ideal.div (0 + ∑ j : (⟨4, ![32, 3, 512, 512]⟩ : Shape).Idx,
      summand x y (Host.reverse [2] x) (Host.reverse [2] y) (Host.reverse [3] x) (Host.reverse [3] y) j)
    (Ideal.ofBits .f32 0x4BC00000#32)

/-! ## A block's three nested lane sums -/

/-- Three one-axis lane sums in a row — over the columns, then over the rows, then (after a unit axis is put in front)
    over the two planes — leave, at the one remaining index, the triple sum of the block over its coordinates. -/
theorem laneSums (v : FVec Ideal ⟨3, ![2, 512, 512]⟩ .f32)
    (h2 : (⟨3, ![2, 512, 512]⟩ : Shape).Reduces [2] ⟨2, ![2, 512]⟩)
    (h1 : (⟨2, ![2, 512]⟩ : Shape).Reduces [1] ⟨1, ![2]⟩)
    (h0 : (⟨2, ![1, 2]⟩ : Shape).Reduces [1] ⟨1, ![1]⟩)
    (hc : (⟨1, ![2]⟩ : Shape).ShapeCasts ⟨2, ![1, 2]⟩) (hc' : (⟨1, ![1]⟩ : Shape).ShapeCasts ⟨2, ![1, 1]⟩)
    (hφ : FKind.Formats .f32) (hacc : (0x00000000#32 : BitVec 32) = FKind.add.neutral .f32 hφ)
    (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, 2]⟩
      (multiReduction .add [1] ⟨1, ![2]⟩ (multiReduction .add [2] ⟨2, ![2, 512]⟩ v 0x00000000#32 h2 hφ hacc)
        0x00000000#32 h1 hφ hacc) hc) 0x00000000#32 h0 hφ hacc) hc') hp
      = ∑ a : Fin 2, ∑ h : Fin 512, ∑ w : Fin 512, v (ix3 a h w) := by
  unfold extractAt
  refine (shapeCast_addUnit_apply ![1] _ hc' _).trans ?_
  refine (Ideal.multiReduction_add_single _ 0x00000000#32 h0 hφ hacc _).trans ?_
  refine Finset.sum_congr rfl fun a _ => ?_
  refine (shapeCast_addUnit_apply ![2] _ hc _).trans ?_
  refine (Ideal.multiReduction_add_single _ 0x00000000#32 h1 hφ hacc _).trans ?_
  refine Finset.sum_congr rfl fun h _ => ?_
  refine (Ideal.multiReduction_add_single _ 0x00000000#32 h2 hφ hacc _).trans ?_
  refine Finset.sum_congr rfl fun w _ => ?_
  congr 1
  funext d
  match d with
  | ⟨0, _⟩ => rfl
  | ⟨1, _⟩ => rfl
  | ⟨2, _⟩ => rfl

/-! ## The 96 rows, two at a time, twenty-four pairs to a group -/

/-- Row `a` of the pair `s` of group `g`: row 2·(24·g + s) + a of the 96. -/
def row (g : Fin 2) (s : Fin 24) (a : Fin 2) : Fin 96 :=
  ⟨2 * (24 * g.val + s.val) + a.val, by have := g.isLt; have := s.isLt; have := a.isLt; omega⟩

theorem row_val (g : Fin 2) (s : Fin 24) (a : Fin 2) : (row g s a).val = 2 * (24 * g.val + s.val) + a.val := rfl

/-- A sum over the 96 rows, group by group, pair by pair. -/
theorem sum_rows_grouped {M : Type*} [AddCommMonoid M] (f : Fin 96 → M) :
    ∑ r : Fin 96, f r = ∑ g : Fin 2, ∑ s : Fin 24, ∑ a : Fin 2, f (row g s a) := by
  refine (Cert.SumTiles.sum_tiles 48 2 f).trans ?_
  refine (Cert.SumTiles.sum_tiles 2 24 fun n => ∑ a : Fin 2, f (Cert.SumTiles.at_ n a)).trans ?_
  exact Finset.sum_congr rfl fun g _ => Finset.sum_congr rfl fun s _ => Finset.sum_congr rfl fun a _ =>
    congrArg f (Fin.ext rfl)

/-- So the sum of a [96,512,512] array over every index is the sum, over the groups, the pairs of a group and the two
    rows of a pair, of that row's double sum. -/
theorem total_grouped {M : Type*} [AddCommMonoid M] (P : (⟨3, ![96, 512, 512]⟩ : Shape).Idx → M) :
    ∑ i, P i = ∑ g : Fin 2, ∑ s : Fin 24, ∑ a : Fin 2, ∑ h : Fin 512, ∑ w : Fin 512, P (ix3 (row g s a) h w) :=
  (Cert.SumIdx.sum_idx3 P).trans (sum_rows_grouped fun r => ∑ h : Fin 512, ∑ w : Fin 512, P (ix3 r h w))

end Cert.FlipDiff

end
-- ==== Proof.KernelValue.lean ====
/-
  The idealized kernel's result, read off its run.

  The program mirrors and reshapes its two arguments into six [96,512,512] operands, runs one pallas_call over a 2 × 24
  grid, and finishes on the host. Point t of the grid (group t / 24, step t % 24) reads rows 2·t and 2·t + 1 of every
  operand, forms the loss's summand on that [2,512,512] block and sums it to one scalar; an [8,128] accumulator, cleared
  at a group's first point, gains that scalar in every entry at every point; at a group's last point the accumulator
  is written out as plane t / 24 of the [2,8,128] result. So plane g of the result holds, in every entry, the sum of the
  summand over rows 48·g … 48·g + 47. The host then takes entry (g, 0, 0) of each plane, adds the two from zero and
  divides by the constant.

  Below: the operands as reshapes; where each block lies; the body's payloads at the extended reals; the running total
  by induction on the point; the result array from the two blocks that are written back; the host's tail. The last
  section regroups the sums: two groups of twenty-four pairs of rows are the 96 rows, and a reshape only renames indices,
  so the kernel's number is zero plus the summand's total over the whole [32,3,512,512] index set, divided by the constant.
-/
import proofs.«151076_j67929202753539_1_alg».proof.Proof.KernelPieces
import proofs.«151076_j67929202753539_1_alg».proof.Proof.FlipDiffSum
import Idealize.ShloMosaic.Lib.Pipeline.Value
import Idealize.ShloMosaic.Lib.ValueIdx
import Idealize.ShloMosaic.Lib.StableHlo.Run
import Idealize.ShloMosaic.Lib.IdealHost
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The six arrays the region reads

Before the region the host mirrors each argument along the height axis and along the width axis and reshapes the two
arguments and their four mirror images from [32,3,512,512] to [96,512,512]: the region's six operands. -/

theorem region_operand0 (c : Dev nD) : (V m c main_v4 : Vec Ideal S96x512x512 .f32)
    = shapeCast S96x512x512 (m ((c : Thread nD τ).loc main_arg0)) shapeCasts_S32x3x512x512_S96x512x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem region_operand1 (c : Dev nD) : (V m c main_v5 : Vec Ideal S96x512x512 .f32)
    = shapeCast S96x512x512 (m ((c : Thread nD τ).loc main_arg1)) shapeCasts_S32x3x512x512_S96x512x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem region_operand2 (c : Dev nD) : (V m c main_v6 : Vec Ideal S96x512x512 .f32)
    = shapeCast S96x512x512 (Host.reverse [2] (m ((c : Thread nD τ).loc main_arg0))) shapeCasts_S32x3x512x512_S96x512x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem region_operand3 (c : Dev nD) : (V m c main_v7 : Vec Ideal S96x512x512 .f32)
    = shapeCast S96x512x512 (Host.reverse [2] (m ((c : Thread nD τ).loc main_arg1))) shapeCasts_S32x3x512x512_S96x512x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem region_operand4 (c : Dev nD) : (V m c main_v8 : Vec Ideal S96x512x512 .f32)
    = shapeCast S96x512x512 (Host.reverse [3] (m ((c : Thread nD τ).loc main_arg0))) shapeCasts_S32x3x512x512_S96x512x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem region_operand5 (c : Dev nD) : (V m c main_v9 : Vec Ideal S96x512x512 .f32)
    = shapeCast S96x512x512 (Host.reverse [3] (m ((c : Thread nD τ).loc main_arg1))) shapeCasts_S32x3x512x512_S96x512x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-! ## Where the blocks lie

Point `t` of the 2 × 24 grid reads rows 2·t and 2·t + 1 of each operand (all 512 × 512 entries of each) and belongs to
group t / 24, whose [1,8,128] output block is block t / 24 of the [2,8,128] result. -/

theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val / 24 ∧ win0_6.index t (1 : Fin 3) = 0 ∧ win0_6.index t (2 : Fin 3) = 0 :=
  (by decide +kernel : ∀ t : Fin grid0.N, _)

/-- An entry of operand 0's block at point `t` is the operand's entry two rows per point further down. -/
theorem block_entry0 (c : Dev nD) (t : Fin cfg0.N) (y : S2x512x512.Idx) (i : S96x512x512.Idx)
    (e0 : (i 0).val = 2 * t.val + (y 0).val) (e1 : (i 1).val = (y 1).val) (e2 : (i 2).val = (y 2).val) :
    (iblk m c 0 t : Vec Ideal S2x512x512 .f32) y = (V m c main_v4 : Vec Ideal S96x512x512 .f32) i := by
  obtain ⟨f0, f1, f2, -⟩ := block_indices t
  unfold iblk
  rw [View.read_apply]
  show (V m c main_v4 : Vec Ideal S96x512x512 .f32) _ = _
  congr 1
  funext a; apply Fin.ext
  match a with
  | ⟨0, _⟩ => show win0_0.index t (0 : Fin 3) * 2 + 1 * (y 0).val = (i 0).val; rw [f0, e0]; omega
  | ⟨1, _⟩ => show win0_0.index t (1 : Fin 3) * 512 + 1 * (y 1).val = (i 1).val; rw [f1, e1]; omega
  | ⟨2, _⟩ => show win0_0.index t (2 : Fin 3) * 512 + 1 * (y 2).val = (i 2).val; rw [f2, e2]; omega

/-- An entry of operand 1's block at point `t` is the operand's entry two rows per point further down. -/
theorem block_entry1 (c : Dev nD) (t : Fin cfg0.N) (y : S2x512x512.Idx) (i : S96x512x512.Idx)
    (e0 : (i 0).val = 2 * t.val + (y 0).val) (e1 : (i 1).val = (y 1).val) (e2 : (i 2).val = (y 2).val) :
    (iblk m c 1 t : Vec Ideal S2x512x512 .f32) y = (V m c main_v5 : Vec Ideal S96x512x512 .f32) i := by
  obtain ⟨-, -, -, f0, f1, f2, -⟩ := block_indices t
  unfold iblk
  rw [View.read_apply]
  show (V m c main_v5 : Vec Ideal S96x512x512 .f32) _ = _
  congr 1
  funext a; apply Fin.ext
  match a with
  | ⟨0, _⟩ => show win0_1.index t (0 : Fin 3) * 2 + 1 * (y 0).val = (i 0).val; rw [f0, e0]; omega
  | ⟨1, _⟩ => show win0_1.index t (1 : Fin 3) * 512 + 1 * (y 1).val = (i 1).val; rw [f1, e1]; omega
  | ⟨2, _⟩ => show win0_1.index t (2 : Fin 3) * 512 + 1 * (y 2).val = (i 2).val; rw [f2, e2]; omega

/-- An entry of operand 2's block at point `t` is the operand's entry two rows per point further down. -/
theorem block_entry2 (c : Dev nD) (t : Fin cfg0.N) (y : S2x512x512.Idx) (i : S96x512x512.Idx)
    (e0 : (i 0).val = 2 * t.val + (y 0).val) (e1 : (i 1).val = (y 1).val) (e2 : (i 2).val = (y 2).val) :
    (iblk m c 2 t : Vec Ideal S2x512x512 .f32) y = (V m c main_v6 : Vec Ideal S96x512x512 .f32) i := by
  obtain ⟨-, -, -, -, -, -, f0, f1, f2, -⟩ := block_indices t
  unfold iblk
  rw [View.read_apply]
  show (V m c main_v6 : Vec Ideal S96x512x512 .f32) _ = _
  congr 1
  funext a; apply Fin.ext
  match a with
  | ⟨0, _⟩ => show win0_2.index t (0 : Fin 3) * 2 + 1 * (y 0).val = (i 0).val; rw [f0, e0]; omega
  | ⟨1, _⟩ => show win0_2.index t (1 : Fin 3) * 512 + 1 * (y 1).val = (i 1).val; rw [f1, e1]; omega
  | ⟨2, _⟩ => show win0_2.index t (2 : Fin 3) * 512 + 1 * (y 2).val = (i 2).val; rw [f2, e2]; omega

/-- An entry of operand 3's block at point `t` is the operand's entry two rows per point further down. -/
theorem block_entry3 (c : Dev nD) (t : Fin cfg0.N) (y : S2x512x512.Idx) (i : S96x512x512.Idx)
    (e0 : (i 0).val = 2 * t.val + (y 0).val) (e1 : (i 1).val = (y 1).val) (e2 : (i 2).val = (y 2).val) :
    (iblk m c 3 t : Vec Ideal S2x512x512 .f32) y = (V m c main_v7 : Vec Ideal S96x512x512 .f32) i := by
  obtain ⟨-, -, -, -, -, -, -, -, -, f0, f1, f2, -⟩ := block_indices t
  unfold iblk
  rw [View.read_apply]
  show (V m c main_v7 : Vec Ideal S96x512x512 .f32) _ = _
  congr 1
  funext a; apply Fin.ext
  match a with
  | ⟨0, _⟩ => show win0_3.index t (0 : Fin 3) * 2 + 1 * (y 0).val = (i 0).val; rw [f0, e0]; omega
  | ⟨1, _⟩ => show win0_3.index t (1 : Fin 3) * 512 + 1 * (y 1).val = (i 1).val; rw [f1, e1]; omega
  | ⟨2, _⟩ => show win0_3.index t (2 : Fin 3) * 512 + 1 * (y 2).val = (i 2).val; rw [f2, e2]; omega

/-- An entry of operand 4's block at point `t` is the operand's entry two rows per point further down. -/
theorem block_entry4 (c : Dev nD) (t : Fin cfg0.N) (y : S2x512x512.Idx) (i : S96x512x512.Idx)
    (e0 : (i 0).val = 2 * t.val + (y 0).val) (e1 : (i 1).val = (y 1).val) (e2 : (i 2).val = (y 2).val) :
    (iblk m c 4 t : Vec Ideal S2x512x512 .f32) y = (V m c main_v8 : Vec Ideal S96x512x512 .f32) i := by
  obtain ⟨-, -, -, -, -, -, -, -, -, -, -, -, f0, f1, f2, -⟩ := block_indices t
  unfold iblk
  rw [View.read_apply]
  show (V m c main_v8 : Vec Ideal S96x512x512 .f32) _ = _
  congr 1
  funext a; apply Fin.ext
  match a with
  | ⟨0, _⟩ => show win0_4.index t (0 : Fin 3) * 2 + 1 * (y 0).val = (i 0).val; rw [f0, e0]; omega
  | ⟨1, _⟩ => show win0_4.index t (1 : Fin 3) * 512 + 1 * (y 1).val = (i 1).val; rw [f1, e1]; omega
  | ⟨2, _⟩ => show win0_4.index t (2 : Fin 3) * 512 + 1 * (y 2).val = (i 2).val; rw [f2, e2]; omega

/-- An entry of operand 5's block at point `t` is the operand's entry two rows per point further down. -/
theorem block_entry5 (c : Dev nD) (t : Fin cfg0.N) (y : S2x512x512.Idx) (i : S96x512x512.Idx)
    (e0 : (i 0).val = 2 * t.val + (y 0).val) (e1 : (i 1).val = (y 1).val) (e2 : (i 2).val = (y 2).val) :
    (iblk m c 5 t : Vec Ideal S2x512x512 .f32) y = (V m c main_v9 : Vec Ideal S96x512x512 .f32) i := by
  obtain ⟨-, -, -, -, -, -, -, -, -, -, -, -, -, -, -, f0, f1, f2, -⟩ := block_indices t
  unfold iblk
  rw [View.read_apply]
  show (V m c main_v9 : Vec Ideal S96x512x512 .f32) _ = _
  congr 1
  funext a; apply Fin.ext
  match a with
  | ⟨0, _⟩ => show win0_5.index t (0 : Fin 3) * 2 + 1 * (y 0).val = (i 0).val; rw [f0, e0]; omega
  | ⟨1, _⟩ => show win0_5.index t (1 : Fin 3) * 512 + 1 * (y 1).val = (i 1).val; rw [f1, e1]; omega
  | ⟨2, _⟩ => show win0_5.index t (2 : Fin 3) * 512 + 1 * (y 2).val = (i 2).val; rw [f2, e2]; omega

/-! ## The body's arithmetic at the extended reals -/

/-- The accumulator's update: every entry gains the point's scalar. -/
theorem pay1_apply (s : Ideal .f32) (acc : Vec Ideal S8x128 .f32) (y : S8x128.Idx) :
    k0_pay1 s acc y = acc y + s := by
  simp only [k0_pay1, shapeCast_self]
  rfl

/-- The cleared accumulator is zero at every entry. -/
theorem pay3_apply (y : S8x128.Idx) : k0_pay3 (F := Ideal) y = 0 := by
  simp only [k0_pay3, shapeCast_self]
  exact Ideal.ofBits_zero_f32

/-- The point's scalar: the summand of the six blocks, summed over the block's two rows, 512 lines and 512 columns. -/
theorem pay4_eq (x0 x1 x2 x3 x4 x5 : Vec Ideal S2x512x512 .f32) :
    k0_pay4 x0 x1 x2 x3 x4 x5
      = ∑ a : Fin 2, ∑ h : Fin 512, ∑ w : Fin 512, FlipDiff.summand x0 x1 x2 x3 x4 x5 (ix3 a h w) := by
  simp only [k0_pay4, shapeCast_self]
  exact FlipDiff.laneSums _ reduces_S2x512x512_S2x512 reduces_S2x512_S2 reduces_S1x2_S1 shapeCasts_S2_S1x2
    shapeCasts_S1_S1x1 (.inl rfl) rfl inpos_S1x1_p0_0

/-! ## The accumulator, point by point -/

/-- The summand of the region's six operands, a [96,512,512] array. -/
def rowsSummand (c : Dev nD) : FVec Ideal S96x512x512 .f32 :=
  FlipDiff.summand (V m c main_v4 : Vec Ideal S96x512x512 .f32) (V m c main_v5 : Vec Ideal S96x512x512 .f32)
    (V m c main_v6 : Vec Ideal S96x512x512 .f32) (V m c main_v7 : Vec Ideal S96x512x512 .f32)
    (V m c main_v8 : Vec Ideal S96x512x512 .f32) (V m c main_v9 : Vec Ideal S96x512x512 .f32)

/-- Point `t`'s scalar. -/
def pointScalar (c : Dev nD) (t : Fin cfg0.N) : Ideal .f32 :=
  k0_pay4 (F := Ideal) (iblk m c 0 t) (iblk m c 1 t) (iblk m c 2 t) (iblk m c 3 t) (iblk m c 4 t) (iblk m c 5 t)

/-- Row `a` of point `t`'s pair of rows. -/
def rowOf (t : Fin cfg0.N) (a : Fin 2) : Fin 96 :=
  ⟨2 * t.val + a.val, by have := t.isLt; have := a.isLt; have : cfg0.N = 48 := N_0; omega⟩

/-- Point `t`'s scalar is the sum of the operands' summand over rows 2·t and 2·t + 1. -/
theorem pointScalar_eq (c : Dev nD) (t : Fin cfg0.N) :
    pointScalar m c t = ∑ a : Fin 2, ∑ h : Fin 512, ∑ w : Fin 512, rowsSummand m c (ix3 (rowOf t a) h w) := by
  unfold pointScalar
  rw [pay4_eq]
  refine Finset.sum_congr rfl fun a _ => Finset.sum_congr rfl fun h _ => Finset.sum_congr rfl fun w _ => ?_
  unfold rowsSummand
  show FlipDiff.summand _ _ _ _ _ _ (ix3 a h w) = FlipDiff.summand _ _ _ _ _ _ (ix3 (rowOf t a) h w)
  unfold FlipDiff.summand
  show FloatOps.addf (FloatOps.mulf (FloatOps.subf (FloatOps.absf (FloatOps.subf _ _)) (FloatOps.absf (FloatOps.subf _ _))) (FloatOps.subf (FloatOps.absf (FloatOps.subf _ _)) (FloatOps.absf (FloatOps.subf _ _)))) (FloatOps.mulf (FloatOps.subf (FloatOps.absf (FloatOps.subf _ _)) (FloatOps.absf (FloatOps.subf _ _))) (FloatOps.subf (FloatOps.absf (FloatOps.subf _ _)) (FloatOps.absf (FloatOps.subf _ _)))) = _
  rw [block_entry0 m c t (ix3 a h w) (ix3 (rowOf t a) h w) rfl rfl rfl, block_entry1 m c t (ix3 a h w) (ix3 (rowOf t a) h w) rfl rfl rfl,
    block_entry2 m c t (ix3 a h w) (ix3 (rowOf t a) h w) rfl rfl rfl, block_entry3 m c t (ix3 a h w) (ix3 (rowOf t a) h w) rfl rfl rfl,
    block_entry4 m c t (ix3 a h w) (ix3 (rowOf t a) h w) rfl rfl rfl, block_entry5 m c t (ix3 a h w) (ix3 (rowOf t a) h w) rfl rfl rfl]
  rfl

/-- At the first point of a group the accumulator is cleared and gains the point's scalar. -/
theorem acc_first (c : Dev nD) (t : Fin cfg0.N) (h0 : t.val % 24 = 0) (h1 : ¬t.val % 24 = 23) :
    (outsAt0 m c t.val t.isLt).2 = k0_pay1 (pointScalar m c t) (k0_pay3 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At a middle point it gains the point's scalar over what the point before left. -/
theorem acc_middle (c : Dev nD) (t : Fin cfg0.N) (h0 : ¬t.val % 24 = 0) (h1 : ¬t.val % 24 = 23) :
    (outsAt0 m c t.val t.isLt).2 = k0_pay1 (pointScalar m c t) (outsAt0 m c (t.val - 1) (Nat.lt_of_le_of_lt (Nat.sub_le _ _) t.isLt)).2 := by
  rw [outsAt0_B m c t h0 h1]
  dsimp only
  exact Pieces.scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- At the last point of a group likewise, -/
theorem acc_last (c : Dev nD) (t : Fin cfg0.N) (h0 : ¬t.val % 24 = 0) (h1 : t.val % 24 = 23) :
    (outsAt0 m c t.val t.isLt).2 = k0_pay1 (pointScalar m c t) (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- and the output block is the accumulator as that point leaves it, a unit axis in front. -/
theorem out_last (c : Dev nD) (t : Fin cfg0.N) (h0 : ¬t.val % 24 = 0) (h1 : t.val % 24 = 23) :
    (outsAt0 m c t.val t.isLt).1 = k0_pay2 (outsAt0 m c t.val t.isLt).2 := by
  rw [acc_last m c t h0 h1, outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- Point `n`'s scalar as a function of every natural number (zero past the grid, where it is never used). -/
def scalarAt (c : Dev nD) (n : ℕ) : EReal := if h : n < cfg0.N then pointScalar m c ⟨n, h⟩ else 0

theorem scalarAt_of_lt (c : Dev nD) (n : ℕ) (h : n < cfg0.N) : scalarAt m c n = pointScalar m c ⟨n, h⟩ := dif_pos h

/-- THE RUNNING TOTAL. After point `n` every entry of the accumulator holds the sum of the scalars of the points of
    `n`'s group up to `n`: the group starts at n - n % 24, and n % 24 + 1 of its points have run. By induction on the
    point: a group's first point starts the sum afresh, every other point adds its own scalar to the sum before it. -/
theorem acc_eq (c : Dev nD) : ∀ (n : ℕ) (hn : n < cfg0.N) (y : S8x128.Idx),
    (outsAt0 m c n hn).2 y = ∑ s ∈ Finset.range (n % 24 + 1), scalarAt m c (n - n % 24 + s)
  | 0, hn, y => by
    rw [show (outsAt0 m c 0 hn).2 = _ from acc_first m c ⟨0, hn⟩ rfl (by show ¬(0 % 24 = 23); decide), pay1_apply, pay3_apply, zero_add]
    show _ = ∑ s ∈ Finset.range 1, scalarAt m c (0 - 0 + s)
    rw [Finset.sum_range_one]
    exact (scalarAt_of_lt m c 0 hn).symm
  | n + 1, hn, y => by
    by_cases h0 : (n + 1) % 24 = 0
    · have h1 : ¬(n + 1) % 24 = 23 := by omega
      rw [show (outsAt0 m c (n + 1) hn).2 = _ from acc_first m c ⟨n + 1, hn⟩ h0 h1, pay1_apply, pay3_apply, zero_add,
        h0, Finset.sum_range_one]
      exact (scalarAt_of_lt m c (n + 1) hn).symm
    · have ih := acc_eq c n (Nat.lt_of_succ_lt hn) y
      have hstep : (outsAt0 m c (n + 1) hn).2
          = k0_pay1 (pointScalar m c ⟨n + 1, hn⟩) (outsAt0 m c n (Nat.lt_of_succ_lt hn)).2 := by
        by_cases h1 : (n + 1) % 24 = 23
        · exact acc_last m c ⟨n + 1, hn⟩ h0 h1
        · exact acc_middle m c ⟨n + 1, hn⟩ h0 h1
      have e1 : (n + 1) % 24 = n % 24 + 1 := by omega
      have e2 : n + 1 - (n + 1) % 24 = n - n % 24 := by omega
      have e3 : n - n % 24 + (n % 24 + 1) = n + 1 := by omega
      rw [hstep, pay1_apply, ih, e2, e1, Finset.sum_range_succ _ (n % 24 + 1), e3, scalarAt_of_lt m c (n + 1) hn]

/-! ## The region's result array -/

/-- The total of group `g`: the sum of the scalars of its twenty-four points. -/
def groupTotal (c : Dev nD) (g : ℕ) : EReal := ∑ s ∈ Finset.range 24, scalarAt m c (24 * g + s)

/-- What the region's [2,8,128] result holds: every entry of plane `g` is group `g`'s total. -/
def resultArray (c : Dev nD) : Vec Ideal S2x8x128 .f32 := fun i => groupTotal m c (i 0).val

/-- At a group's last point every entry of the output block is the group's total. -/
theorem out_block_entry (c : Dev nD) (t : Fin cfg0.N) (h23 : t.val % 24 = 23) (y : S1x8x128.Idx) :
    k0_pay2 (outsAt0 m c t.val t.isLt).2 y = groupTotal m c (t.val / 24) := by
  unfold k0_pay2
  refine (shapeCast_addUnit_apply ![8, 128] _ shapeCasts_S8x128_S1x8x128 y).trans ?_
  refine (acc_eq m c t.val t.isLt _).trans ?_
  have e23 : t.val % 24 + 1 = 24 := by omega
  have e' : t.val - t.val % 24 = 24 * (t.val / 24) := by omega
  unfold groupTotal
  rw [e23, e']

/-- The one block a group writes back, at its last point, is that plane. -/
theorem flushed_eq (c : Dev nD) (t : Fin cfg0.N) (hf : (cfg0.win 6).flush t = true) :
    (dats m 0 c).flushed 6 t = ((cfg0.win 6).blk t).view.read (Elt Ideal) (resultArray m c) := by
  have h23 : t.val % 24 = 23 := (flush0_6 t).mp hf
  have h0 : ¬t.val % 24 = 0 := by omega
  obtain ⟨-, -, -, -, -, -, -, -, -, -, -, -, -, -, -, -, -, -, f0, f1, f2⟩ := block_indices t
  show (cfg0.win 6).cut (grid0.coords t) ((dats m 0 c).after 6 t) = _
  rw [after0_6, out_last m c t h0 h23]
  funext j
  show k0_pay2 (outsAt0 m c t.val t.isLt).2 j = resultArray m c (((cfg0.win 6).blk t).view.emb j)
  refine (out_block_entry m c t h23 j).trans ?_
  unfold resultArray
  have hj : (j 0).val < 1 := (j 0).isLt
  have e : ((((cfg0.win 6).blk t).view.emb j) 0).val = t.val / 24 := by
    show win0_6.index t (0 : Fin 3) * 1 + 1 * (j 0).val = _
    rw [f0]; omega
  rw [e]

/-- Every entry of the result lies in the block its plane's group writes back. -/
theorem covered (c : Dev nD) (i : S2x8x128.Idx) :
    ∃ t : Fin cfg0.N, (cfg0.win 6).flush t = true ∧ i ∈ ((cfg0.win 6).blk t).view.set := by
  have hN : cfg0.N = 48 := N_0
  have hi0 : (i 0).val < 2 := (i 0).isLt
  have hi1 : (i 1).val < 8 := (i 1).isLt
  have hi2 : (i 2).val < 128 := (i 2).isLt
  have hlt : 24 * (i 0).val + 23 < cfg0.N := by omega
  obtain ⟨-, -, -, -, -, -, -, -, -, -, -, -, -, -, -, -, -, -, f0, f1, f2⟩ := block_indices ⟨24 * (i 0).val + 23, hlt⟩
  have g0 : win0_6.index ⟨24 * (i 0).val + 23, hlt⟩ (0 : Fin 3) = (i 0).val := by
    rw [f0]; show (24 * (i 0).val + 23) / 24 = _; omega
  refine ⟨⟨24 * (i 0).val + 23, hlt⟩, (flush0_6 _).mpr (by show (24 * (i 0).val + 23) % 24 = 23; omega), ?_⟩
  show i ∈ ((View.whole main_v10).slice (win0_6.rect ⟨24 * (i 0).val + 23, hlt⟩)).set
  rw [View.set_slice_whole, Rect.mem_set_unit]
  intro a
  match a with
  | ⟨0, _⟩ =>
    show win0_6.index ⟨24 * (i 0).val + 23, hlt⟩ (0 : Fin 3) * 1 ≤ (i 0).val
      ∧ (i 0).val < win0_6.index ⟨24 * (i 0).val + 23, hlt⟩ (0 : Fin 3) * 1 + 1
    rw [g0]; omega
  | ⟨1, _⟩ =>
    show win0_6.index ⟨24 * (i 0).val + 23, hlt⟩ (1 : Fin 3) * 8 ≤ (i 1).val
      ∧ (i 1).val < win0_6.index ⟨24 * (i 0).val + 23, hlt⟩ (1 : Fin 3) * 8 + 8
    rw [f1]; omega
  | ⟨2, _⟩ =>
    show win0_6.index ⟨24 * (i 0).val + 23, hlt⟩ (2 : Fin 3) * 128 ≤ (i 2).val
      ∧ (i 2).val < win0_6.index ⟨24 * (i 0).val + 23, hlt⟩ (2 : Fin 3) * 128 + 128
    rw [f2]; omega

/-- So the region's result array ends holding each group's total on the group's plane. -/
theorem result_final (c : Dev nD) : (dats m 0 c).arrAt 6 cfg0.N = resultArray m c :=
  (dats m 0 c).arrAt_eq_of_cover 6 (resultArray m c) (flushed_eq m c) (covered c)

/-! ## The host's lines after the region -/

theorem tail_eq (c : Dev nD) :
    Pipeline.afterTail₀ cfgs (dats m) 0 (V0 m) [hostOps1] c main_v14
      = Host.divf (F := Ideal) (Host.reduceAdd (F := Ideal) (shapeCast S2 (extractStridedSlice S2x1x1 ![0, 0, 0] (resultArray m c)
          slices_S2x8x128_S2x1x1_0_0_0) shapeCasts_S2x1x1_S2) (constant (F := Ideal) S_ .f32 0x00000000#32) reducesTo_S2_S_d0 h_S_)
          (constant (F := Ideal) S_ .f32 0x4BC00000#32) := by
  unfold Pipeline.afterTail₀
  show StableHlo.after hostOps1 _ (Proc.devRef .tc main_v14) = _
  after_results
  have hw : Pipeline.withArrays (cfgs 0).spec c (V0 m c) (fun w => (dats m 0 c).arrAt w (cfgs 0).N)
      (Proc.tc.devRef main_v10) = resultArray m c :=
    (Pipeline.withArrays_arr spec0 launch0.win.arr_inj c _ _ 6).trans (result_final m c)
  rw [hw]
  rfl

/-! ## The kernel's result as the summand's total -/

/-- Entry `g` of the two-entry vector the host cuts out of the region's result is group `g`'s total. -/
theorem cut_entry (c : Dev nD) (g : Fin 2) :
    (shapeCast S2 (extractStridedSlice S2x1x1 ![0, 0, 0] (resultArray m c) slices_S2x8x128_S2x1x1_0_0_0) shapeCasts_S2x1x1_S2) (ix1 g) = groupTotal m c g.val := by
  refine (shapeCast_apply _ shapeCasts_S2x1x1_S2 (ix1 g) (ix3 g (0 : Fin 1) (0 : Fin 1)) ?_).trans ?_
  · rw [Shape.rowMajor_val_three, Shape.rowMajor_val_one]
    show (g.val * 1 + 0) * 1 + 0 = g.val
    omega
  · refine (extractStridedSlice_apply ![0, 0, 0] _ slices_S2x8x128_S2x1x1_0_0_0 (ix3 g (0 : Fin 1) (0 : Fin 1))
      (ix3 g (0 : Fin 8) (0 : Fin 128)) ?_).trans rfl
    intro b
    match b with
    | ⟨0, _⟩ => show g.val = 0 + g.val; omega
    | ⟨1, _⟩ => rfl
    | ⟨2, _⟩ => rfl

/-- The two groups' totals together are the total of the operands' summand over all 96 rows: each group's total is the
    sum of its points' scalars, each scalar the sum over the point's two rows, and the rows of all points of both groups
    are the 96 rows, each once. -/
theorem groups_total (c : Dev nD) :
    ∑ g : Fin 2, groupTotal m c g.val = ∑ i : S96x512x512.Idx, rowsSummand m c i := by
  rw [FlipDiff.total_grouped (rowsSummand m c)]
  refine Finset.sum_congr rfl fun g _ => ?_
  unfold groupTotal
  rw [Finset.sum_range]
  refine Finset.sum_congr rfl fun s _ => ?_
  have hlt : 24 * g.val + s.val < cfg0.N := by
    have := g.isLt; have := s.isLt; have : cfg0.N = 48 := N_0; omega
  rw [scalarAt_of_lt m c _ hlt, pointScalar_eq]
  refine Finset.sum_congr rfl fun a _ => Finset.sum_congr rfl fun h _ => Finset.sum_congr rfl fun w _ => ?_
  exact congrArg (fun r => rowsSummand m c (ix3 r h w)) (Fin.ext rfl)

/-- The operands are the reshaped arguments and mirror images, and a reshape only renames the indices: the total over the
    96 × 512 × 512 index set is the total over the 32 × 3 × 512 × 512 one. -/
theorem rows_total (c : Dev nD) :
    ∑ i : S96x512x512.Idx, rowsSummand m c i
      = ∑ j : S32x3x512x512.Idx, FlipDiff.summand (m ((c : Thread nD τ).loc main_arg0)) (m ((c : Thread nD τ).loc main_arg1))
          (Host.reverse [2] (m ((c : Thread nD τ).loc main_arg0))) (Host.reverse [2] (m ((c : Thread nD τ).loc main_arg1)))
          (Host.reverse [3] (m ((c : Thread nD τ).loc main_arg0))) (Host.reverse [3] (m ((c : Thread nD τ).loc main_arg1))) j := by
  unfold rowsSummand
  rw [region_operand0, region_operand1, region_operand2, region_operand3, region_operand4, region_operand5]
  exact Equiv.sum_comp (Shape.reshapeEquiv shapeCasts_S32x3x512x512_S96x512x512)
    (FlipDiff.summand (m ((c : Thread nD τ).loc main_arg0)) (m ((c : Thread nD τ).loc main_arg1))
      (Host.reverse [2] (m ((c : Thread nD τ).loc main_arg0))) (Host.reverse [2] (m ((c : Thread nD τ).loc main_arg1)))
      (Host.reverse [3] (m ((c : Thread nD τ).loc main_arg0))) (Host.reverse [3] (m ((c : Thread nD τ).loc main_arg1))))

end Cert.KernelIdeal.RegionValue

end
-- ==== Proof.KernelResult.lean ====
/-
  The idealized kernel's run, with its result named: the loss of its two arguments.

  The host's last three lines take the two group totals out of the region's result, add them from zero and divide by the
  constant. The two totals together are the summand's total over all 96 rows, which is its total over the arguments' own
  [32,3,512,512] index set; so the program's one result is the loss of the arguments, and its run leaves the arguments as
  they were.
-/
import proofs.«151076_j67929202753539_1_alg».proof.Proof.KernelValue

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The host's sum of the two entries, from zero: zero plus the summand's total over the arguments' index set. -/
theorem reduce_eq (c : Dev nD) (i : S_.Idx) :
    Host.reduceAdd (F := Ideal) (shapeCast S2 (extractStridedSlice S2x1x1 ![0, 0, 0] (resultArray m c) slices_S2x8x128_S2x1x1_0_0_0) shapeCasts_S2x1x1_S2) (constant (F := Ideal) S_ .f32 0x00000000#32) reducesTo_S2_S_d0 h_S_ i
      = 0 + ∑ j : S32x3x512x512.Idx, FlipDiff.summand (m ((c : Thread nD τ).loc main_arg0)) (m ((c : Thread nD τ).loc main_arg1))
          (Host.reverse [2] (m ((c : Thread nD τ).loc main_arg0))) (Host.reverse [2] (m ((c : Thread nD τ).loc main_arg1)))
          (Host.reverse [3] (m ((c : Thread nD τ).loc main_arg0))) (Host.reverse [3] (m ((c : Thread nD τ).loc main_arg1))) j := by
  rw [hostReduceAdd_apply, Ideal.hostReduceAdd_total reducesTo_S2_S_d0 (fun b => b.elim0), Cert.SumIdx.sum_idx1]
  have hz : (constant (F := Ideal) S_ .f32 0x00000000#32) (Shape.Idx.first h_S_) = 0 := Ideal.ofBits_zero_f32
  rw [hz]
  refine congrArg (fun z : EReal => 0 + z) ?_
  refine (Finset.sum_congr rfl fun g _ => cut_entry m c g).trans ?_
  exact (groups_total m c).trans (rows_total m c)

/-- THE KERNEL'S RESULT: the host divides that sum by the constant; that is the loss of the arguments. -/
theorem result_eq (c : Dev nD) :
    Host.divf (F := Ideal) (Host.reduceAdd (F := Ideal) (shapeCast S2 (extractStridedSlice S2x1x1 ![0, 0, 0] (resultArray m c) slices_S2x8x128_S2x1x1_0_0_0) shapeCasts_S2x1x1_S2) (constant (F := Ideal) S_ .f32 0x00000000#32) reducesTo_S2_S_d0 h_S_)
        (constant (F := Ideal) S_ .f32 0x4BC00000#32)
      = FlipDiff.meanLoss (m ((c : Thread nD τ).loc main_arg0)) (m ((c : Thread nD τ).loc main_arg1)) := by
  funext i
  refine (hostDivf_apply _ _ i).trans ?_
  rw [reduce_eq m c i]
  rfl

/-! ## The run, read -/

/-- Every weakly fair execution of the idealized kernel's @main ends with its result at the loss of its arguments and the
    arguments as they were. -/
theorem run : θ_run defs (onTc (τ := τ) (main (F := Ideal))) ⟨m, fun _ => 0, ρ⟩ fun r => ∀ c : Dev nD,
      r.2.mem ((c.tc : Thread nD τ).loc main_v14) = FlipDiff.meanLoss (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(((h c).2 main_v14 (Pipeline.mem_restRefs_of main_v14 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RegionValue

end
-- ==== Proof.ReferenceTotal.lean ====
/-
  The reference's result as the summand's total.

  The reference mirrors each argument along the height axis and along the width axis, forms the summand
  (|x - xh| - |y - yh|)^2 + (|xw - x| - |yw - y|)^2 entry by entry over the whole [32,3,512,512] index set, adds all of it
  up from zero, and divides by a constant. On the extended reals the host's absolute value is the kernel's, so the array
  it sums is the summand of the two arguments and their four mirror images.
-/
import proofs.«151076_j67929202753539_1_alg».proof.Proof.Gen.ReferenceIdeal.Read
import proofs.«151076_j67929202753539_1_alg».proof.Proof.FlipDiffSum

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The array the reference sums is the summand of the arguments and their mirror images. -/
theorem summed_array (x0 x1 : FVec Ideal S32x3x512x512 .f32) :
    val_main_v16 (F := Ideal) x0 x1
      = FlipDiff.summand x0 x1 (Host.reverse [2] x0) (Host.reverse [2] x1) (Host.reverse [3] x0) (Host.reverse [3] x1) := rfl

/-- The reference's sum, at its one index: zero plus the summand's total over every index. -/
theorem sum_apply (x0 x1 : FVec Ideal S32x3x512x512 .f32) (i : S_.Idx) :
    val_main_v17 (F := Ideal) x0 x1 i
      = 0 + ∑ j : S32x3x512x512.Idx,
          FlipDiff.summand x0 x1 (Host.reverse [2] x0) (Host.reverse [2] x1) (Host.reverse [3] x0) (Host.reverse [3] x1) j := by
  rw [val_main_v17_apply, summed_array]
  congr 1
  exact Ideal.ofBits_zero_f32

/-- THE REFERENCE'S RESULT: that sum divided by the constant, the loss of the arguments. -/
theorem result_eq (x0 x1 : FVec Ideal S32x3x512x512 .f32) :
    val_main_v18 (F := Ideal) x0 x1 = FlipDiff.meanLoss x0 x1 := by
  funext i
  rw [val_main_v18_apply, sum_apply]
  rfl

end Cert.ReferenceIdeal.RefValue

end
-- ==== Proof.lean ====
/-
  The certificate of a mean flip-difference loss: a Pallas kernel against its jnp reference.

  Both programs compute, for two [32,3,512,512] arrays x and y with mirror images xh, yh along the height axis and xw, yw
  along the width axis, the sum over every index of (|x - xh| - |y - yh|)^2 + (|xw - x| - |yw - y|)^2, divided by the number
  of entries. The reference adds the summand up in one reduction over all four axes. The kernel reshapes the arrays to
  [96,512,512], walks the 96 rows two at a time on a 2 × 24 grid, sums each pair of rows with three lane reductions, keeps a
  running total per group of twenty-four pairs in an accumulator, and adds the two group totals on the host. Over the
  extended reals addition is commutative and associative without side conditions, so both are zero plus the same total,
  divided by the same constant: the claim holds for all inputs, and the proof never opens the finiteness precondition.

  The three frames: the two kernel programs' are the generated frame runs; the reference's is its generated run with the
  result dropped. The ideal pass rewrote nothing, so `preserves` is trivial. `algebraic` puts the kernel's run
  (Proof/KernelResult.lean) beside the reference's (Proof/ReferenceTotal.lean); both end at the loss of the arguments
  (Proof/FlipDiffSum.lean's `meanLoss`).
-/
import proofs.«151076_j67929202753539_1_alg».proof.Defs
import proofs.«151076_j67929202753539_1_alg».proof.Proof.Gen.Kernel
import proofs.«151076_j67929202753539_1_alg».proof.Proof.Gen.Kernel.Skeleton
import proofs.«151076_j67929202753539_1_alg».proof.Proof.Gen.Kernel.Launch
import proofs.«151076_j67929202753539_1_alg».proof.Proof.Gen.Kernel.Points
import proofs.«151076_j67929202753539_1_alg».proof.Proof.Gen.Kernel.Frame
import proofs.«151076_j67929202753539_1_alg».proof.Proof.Gen.KernelIdeal
import proofs.«151076_j67929202753539_1_alg».proof.Proof.Gen.KernelIdeal.Skeleton
import proofs.«151076_j67929202753539_1_alg».proof.Proof.Gen.KernelIdeal.Launch
import proofs.«151076_j67929202753539_1_alg».proof.Proof.Gen.KernelIdeal.Points
import proofs.«151076_j67929202753539_1_alg».proof.Proof.Gen.KernelIdeal.Frame
import proofs.«151076_j67929202753539_1_alg».proof.Proof.Gen.ReferenceIdeal
import proofs.«151076_j67929202753539_1_alg».proof.Proof.Gen.ReferenceIdeal.Run
import proofs.«151076_j67929202753539_1_alg».proof.Proof.Gen.ReferenceIdeal.Read
import proofs.«151076_j67929202753539_1_alg».proof.Proof.Gen.Pre_finite_inputs
import proofs.«151076_j67929202753539_1_alg».proof.Proof.KernelResult
import proofs.«151076_j67929202753539_1_alg».proof.Proof.ReferenceTotal
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both idealized programs end at the loss of those arguments. -/
theorem algebraic : Cert.algebraic_KernelIdeal_ReferenceIdeal := by
  intro m ρ m' ρ' _ hagree
  refine ⟨fun c => Cert.FlipDiff.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
